-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192 : Shape := ⟨2, ![128, 8192]⟩
abbrev S27x21 : Shape := ⟨2, ![27, 21]⟩
abbrev S_ : Shape := ⟨0, ![]⟩

class Facts : Prop where
  bcast_S_S27x21 : S_.BroadcastsInDim S27x21 (![] : Fin 0 → Fin S27x21.rank)
  reducesTo_S27x21_S_d0_1 : S27x21.ReducesTo [0, 1] S_
  h_S_ : 0 < S_.numel
  bcast_S_S128x8192 : S_.BroadcastsInDim S128x8192 (![] : Fin 0 → Fin S128x8192.rank)
  reducesTo_S128x8192_S_d0_1 : S128x8192.ReducesTo [0, 1] S_

variable [Facts]

def fn {F : FTy → Type} [FloatOps F] (main_arg0 : IVec S128x8192 32) (main_arg1 : FVec F S27x21 .f32) : IVec S_ 1 :=
  let main_v0 : FVec F S27x21 .f32 := Host.absf main_arg1
  let main_cst : FVec F S_ .f32 := constant S_ .f32 0x7F800000#32
  let main_v1 : FVec F S27x21 .f32 := broadcastInDim S27x21 ![] bcast_S_S27x21 main_cst
  let main_v2 : IVec S27x21 1 := cmpf .olt main_v0 main_v1
  let main_c : IVec S_ 1 := constantI S_ 1 1#1
  let main_v3 : IVec S_ 1 := (fun x v => Host.reduce IntOp.andi x v reducesTo_S27x21_S_d0_1 h_S_) main_v2 main_c
  let main_c_0 : IVec S_ 32 := constantI S_ 32 0#32
  let main_v4 : IVec S128x8192 32 := broadcastInDim S128x8192 ![] bcast_S_S128x8192 main_c_0
  let main_v5 : IVec S128x8192 1 := cmpi .sge main_arg0 main_v4
  let main_c_1 : IVec S_ 32 := constantI S_ 32 27#32
  let main_v6 : IVec S128x8192 32 := broadcastInDim S128x8192 ![] bcast_S_S128x8192 main_c_1
  let main_v7 : IVec S128x8192 1 := cmpi .slt main_arg0 main_v6
  let main_v8 : IVec S128x8192 1 := andi main_v5 main_v7
  let main_c_2 : IVec S_ 1 := constantI S_ 1 1#1
  let main_v9 : IVec S_ 1 := (fun x v => Host.reduce IntOp.andi x v reducesTo_S128x8192_S_d0_1 h_S_) main_v8 main_c_2
  let main_v10 : IVec S_ 1 := andi main_v3 main_v9
  main_v10
-- ==== Kernel.lean ====
abbrev S128x8192 : Shape := ⟨2, ![128, 8192]⟩
abbrev S27x21 : Shape := ⟨2, ![27, 21]⟩
abbrev S128x8192x21 : Shape := ⟨3, ![128, 8192, 21]⟩
abbrev S8x1024 : Shape := ⟨2, ![8, 1024]⟩
abbrev S8x1024x21 : Shape := ⟨3, ![8, 1024, 21]⟩
abbrev S1x21 : Shape := ⟨2, ![1, 21]⟩
abbrev S21 : Shape := ⟨1, ![21]⟩
abbrev S8x1024x1 : Shape := ⟨3, ![8, 1024, 1]⟩
abbrev S1x1x21 : Shape := ⟨3, ![1, 1, 21]⟩

abbrev nBuf : Space → Nat
  | .hbm => 3
  | .vmem => 5
  | .smem => 0
  | _ => 0

abbrev bufTy : (tb : Table) → Fin (tcTables nBuf tb) → BufTy
  | .hbm, ⟨0, _⟩ => ⟨S128x8192, .i32⟩
  | .hbm, ⟨1, _⟩ => ⟨S27x21, .f32⟩
  | .hbm, ⟨2, _⟩ => ⟨S128x8192x21, .f32⟩
  | .local _ .vmem, ⟨0, _⟩ => ⟨S8x1024, .i32⟩
  | .local _ .vmem, ⟨1, _⟩ => ⟨S8x1024, .i32⟩
  | .local _ .vmem, ⟨2, _⟩ => ⟨S27x21, .f32⟩
  | .local _ .vmem, ⟨3, _⟩ => ⟨S8x1024x21, .f32⟩
  | .local _ .vmem, ⟨4, _⟩ => ⟨S8x1024x21, .f32⟩
  | _, _ => ⟨S128x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S27x21 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x1024x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S8x1024_S8x1024_0_0 : ∀ a, (![0, 0] : Fin 2 → Nat) a + S8x1024.size a ≤ S8x1024.size a
  h_S8x1024 : 0 < S8x1024.numel
  inb_S8x1024x21_S8x1024x21_0_0_0 : ∀ a, (![0, 0, 0] : Fin 3 → Nat) a + S8x1024x21.size a ≤ S8x1024x21.size a
  h_S8x1024x21 : 0 < S8x1024x21.numel
  inb_S27x21_S1x21_0_0 : ∀ a, (![0, 0] : Fin 2 → Nat) a + S1x21.size a ≤ S27x21.size a
  h_S1x21 : 0 < S1x21.numel
  shapeCasts_S1x21_S21 : S1x21.ShapeCasts S21
  natLt_1_32 : 1 < 32
  shapeCasts_S8x1024x21_S8x1024x21 : S8x1024x21.ShapeCasts S8x1024x21
  shapeCasts_S8x1024_S8x1024x1 : S8x1024.ShapeCasts S8x1024x1
  shapeCasts_S21_S1x1x21 : S21.ShapeCasts S1x1x21
  broadcasts_S8x1024x1_S8x1024x21 : S8x1024x1.Broadcasts S8x1024x21
  broadcasts_S1x1x21_S8x1024x21 : S1x1x21.Broadcasts S8x1024x21
  inb_S27x21_S1x21_1_0 : ∀ a, (![1, 0] : Fin 2 → Nat) a + S1x21.size a ≤ S27x21.size a
  inb_S27x21_S1x21_2_0 : ∀ a, (![2, 0] : Fin 2 → Nat) a + S1x21.size a ≤ S27x21.size a
  inb_S27x21_S1x21_3_0 : ∀ a, (![3, 0] : Fin 2 → Nat) a + S1x21.size a ≤ S27x21.size a
  inb_S27x21_S1x21_4_0 : ∀ a, (![4, 0] : Fin 2 → Nat) a + S1x21.size a ≤ S27x21.size a
  inb_S27x21_S1x21_5_0 : ∀ a, (![5, 0] : Fin 2 → Nat) a + S1x21.size a ≤ S27x21.size a
  inb_S27x21_S1x21_6_0 : ∀ a, (![6, 0] : Fin 2 → Nat) a + S1x21.size a ≤ S27x21.size a
  inb_S27x21_S1x21_7_0 : ∀ a, (![7, 0] : Fin 2 → Nat) a + S1x21.size a ≤ S27x21.size a
  inb_S27x21_S1x21_8_0 : ∀ a, (![8, 0] : Fin 2 → Nat) a + S1x21.size a ≤ S27x21.size a
  inb_S27x21_S1x21_9_0 : ∀ a, (![9, 0] : Fin 2 → Nat) a + S1x21.size a ≤ S27x21.size a
  inb_S27x21_S1x21_10_0 : ∀ a, (![10, 0] : Fin 2 → Nat) a + S1x21.size a ≤ S27x21.size a
  inb_S27x21_S1x21_11_0 : ∀ a, (![11, 0] : Fin 2 → Nat) a + S1x21.size a ≤ S27x21.size a
  inb_S27x21_S1x21_12_0 : ∀ a, (![12, 0] : Fin 2 → Nat) a + S1x21.size a ≤ S27x21.size a
  inb_S27x21_S1x21_13_0 : ∀ a, (![13, 0] : Fin 2 → Nat) a + S1x21.size a ≤ S27x21.size a
  inb_S27x21_S1x21_14_0 : ∀ a, (![14, 0] : Fin 2 → Nat) a + S1x21.size a ≤ S27x21.size a
  inb_S27x21_S1x21_15_0 : ∀ a, (![15, 0] : Fin 2 → Nat) a + S1x21.size a ≤ S27x21.size a
  inb_S27x21_S1x21_16_0 : ∀ a, (![16, 0] : Fin 2 → Nat) a + S1x21.size a ≤ S27x21.size a
  inb_S27x21_S1x21_17_0 : ∀ a, (![17, 0] : Fin 2 → Nat) a + S1x21.size a ≤ S27x21.size a
  inb_S27x21_S1x21_18_0 : ∀ a, (![18, 0] : Fin 2 → Nat) a + S1x21.size a ≤ S27x21.size a
  inb_S27x21_S1x21_19_0 : ∀ a, (![19, 0] : Fin 2 → Nat) a + S1x21.size a ≤ S27x21.size a
  inb_S27x21_S1x21_20_0 : ∀ a, (![20, 0] : Fin 2 → Nat) a + S1x21.size a ≤ S27x21.size a
  inb_S27x21_S1x21_21_0 : ∀ a, (![21, 0] : Fin 2 → Nat) a + S1x21.size a ≤ S27x21.size a
  inb_S27x21_S1x21_22_0 : ∀ a, (![22, 0] : Fin 2 → Nat) a + S1x21.size a ≤ S27x21.size a
  inb_S27x21_S1x21_23_0 : ∀ a, (![23, 0] : Fin 2 → Nat) a + S1x21.size a ≤ S27x21.size a
  inb_S27x21_S1x21_24_0 : ∀ a, (![24, 0] : Fin 2 → Nat) a + S1x21.size a ≤ S27x21.size a
  inb_S27x21_S1x21_25_0 : ∀ a, (![25, 0] : Fin 2 → Nat) a + S1x21.size a ≤ S27x21.size a
  inb_S27x21_S1x21_26_0 : ∀ a, (![26, 0] : Fin 2 → Nat) a + S1x21.size a ≤ S27x21.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S128x8192.size a
  hwx0_0 : ∀ i : grid0.Coords, EltTy.bits .i32 = 32 ∨ (Rect.block (s := S128x8192) S8x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S27x21.size a ≤ S27x21.size a
  hwx0_1 : ∀ i : grid0.Coords, EltTy.bits .f32 = 32 ∨ (Rect.block (s := S27x21) S27x21.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024x21.size a ≤ S128x8192x21.size a
  hwx0_2 : ∀ i : grid0.Coords, EltTy.bits .f32 = 32 ∨ (Rect.block (s := S128x8192x21) S8x1024x21.size (cc0_transform_2 i) (hinb0_2 i)).WholeWords (EltTy.packing .f32)

variable [Facts₀]

abbrev win0_0 : Pipeline.Window sig grid0 :=
  Pipeline.Window.ofSpec (Memref.whole main_arg0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S27x21.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1024x21.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x8192 : Shape := ⟨2, ![128, 8192]⟩
abbrev S27x21 : Shape := ⟨2, ![27, 21]⟩
abbrev S_ : Shape := ⟨0, ![]⟩
abbrev S128x8192x1 : Shape := ⟨3, ![128, 8192, 1]⟩
abbrev S128x8192x21 : Shape := ⟨3, ![128, 8192, 21]⟩

abbrev nBuf : Space → Nat
  | .hbm => 11
  | .vmem => 0
  | .smem => 0
  | _ => 0

abbrev bufTy : (tb : Table) → Fin (tcTables nBuf tb) → BufTy
  | .hbm, ⟨0, _⟩ => ⟨S128x8192, .i32⟩
  | .hbm, ⟨1, _⟩ => ⟨S27x21, .f32⟩
  | .hbm, ⟨2, _⟩ => ⟨S_, .i32⟩
  | .hbm, ⟨3, _⟩ => ⟨S128x8192, .i32⟩
  | .hbm, ⟨4, _⟩ => ⟨S128x8192, .i1⟩
  | .hbm, ⟨5, _⟩ => ⟨S_, .i32⟩
  | .hbm, ⟨6, _⟩ => ⟨S128x8192, .i32⟩
  | .hbm, ⟨7, _⟩ => ⟨S128x8192, .i32⟩
  | .hbm, ⟨8, _⟩ => ⟨S128x8192, .i32⟩
  | .hbm, ⟨9, _⟩ => ⟨S128x8192x1, .i32⟩
  | .hbm, ⟨10, _⟩ => ⟨S128x8192x21, .f32⟩
  | _, _ => ⟨S128x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S128x8192 : S_.BroadcastsInDim S128x8192 (![] : Fin 0 → Fin S128x8192.rank)
  bcast_S128x8192_S128x8192x1_0_1 : S128x8192.BroadcastsInDim S128x8192x1 (![0, 1] : Fin 2 → Fin S128x8192x1.rank)
  gather_S27x21_S128x8192x1_S128x8192x21_2_0_n_n_0_2_121_wf : GatherDims.WF S27x21 S128x8192x1 S128x8192x21 [2] [0] [] [0] [] 2 ![1, 21]

variable [Facts₀]

def gather_S27x21_S128x8192x1_S128x8192x21_2_0_n_n_0_2_121 : GatherDims S27x21 S128x8192x1 S128x8192x21 where
  offsetDims := [2]
  collapsedSliceDims := [0]
  operandBatchingDims := []
  startIndicesBatchingDims := []
  startIndexMap := [0]
  indexVectorDim := 2
  sliceSizes := ![1, 21]
  wf := gather_S27x21_S128x8192x1_S128x8192x21_2_0_n_n_0_2_121_wf

class Facts : Prop extends Facts₀ where

variable [Facts]
-- ==== Proof.LibOneHotRow.lean ====
/-
  A one-hot row against a column of extended reals.

  A kernel that wants row `w` of a small table without an indexed load builds the row of the identity matrix that
  has its one in column `w` — it compares the word `w` with the column numbers `0, 1, …, n - 1`, widens each answer
  bit to a word and converts the word to a float — and multiplies that row into the table. Over the extended reals
  the entries of the row are exactly `1` (in column `w`) and `0` (elsewhere), `0 * x = 0` and `1 * x = x` for EVERY
  extended real `x` (infinite ones included), so the sum over the columns is the one entry `x w`: no finiteness is
  needed. Stated for any number of columns `n ≤ 2 ^ 32` and any word below `n`.
-/
import Idealize.ShloMosaic.PureOps.Ideal
import Idealize.ShloMosaic.Lib.Affine

noncomputable section

namespace Idealize.ShloMosaic.OneHotRow

open Idealize.ShloMosaic

/-- An answer bit widened to a word, read signed, is the bit as a number. -/
theorem toInt_widen_bit (b : BitVec 1) : (b.setWidth 32).toInt = (b.toNat : ℤ) := by
  rcases BitVec.eq_zero_or_eq_one b with h | h <;> subst h <;> decide

/-- One entry of the row: the comparison of the word with column number `j`, widened and converted, is `1` when the
    word is `j` and `0` otherwise. -/
theorem entry (w : BitVec 32) (j : Nat) (hj : j < 2 ^ 32) :
    (FloatOps.sitofp (F := Ideal) .f32 ((IntOp.cmpi .eq w (BitVec.ofNat 32 j)).setWidth 32) : EReal)
      = if w.toNat = j then 1 else 0 := by
  show ((((IntOp.cmpi .eq w (BitVec.ofNat 32 j)).setWidth 32).toInt : ℝ) : EReal) = _
  rw [toInt_widen_bit]
  by_cases h : w.toNat = j
  · have e : w = BitVec.ofNat 32 j := BitVec.eq_of_toNat_eq (by rw [BitVec.toNat_ofNat, h, Nat.mod_eq_of_lt hj])
    rw [if_pos h, IntOp.cmpi_eq.mpr e]
    norm_num
  · have hne : ¬ w = BitVec.ofNat 32 j := fun e => h (by rw [e, BitVec.toNat_ofNat, Nat.mod_eq_of_lt hj])
    have e0 : IntOp.cmpi .eq w (BitVec.ofNat 32 j) = 0#1 := by
      rcases BitVec.eq_zero_or_eq_one (IntOp.cmpi .eq w (BitVec.ofNat 32 j)) with h0 | h1
      · exact h0
      · exact absurd (IntOp.cmpi_eq.mp h1) hne
    rw [if_neg h, e0]
    norm_num

/-- THE ROW TIMES A COLUMN: the one-hot row of the word `w` summed against `x` is `x w`. -/
theorem sum_mul {n : Nat} (hn : n ≤ 2 ^ 32) (w : BitVec 32) (hw : w.toNat < n) (x : Fin n → EReal) :
    ∑ j : Fin n, (FloatOps.sitofp (F := Ideal) .f32 ((IntOp.cmpi .eq w (BitVec.ofNat 32 j.val)).setWidth 32) : EReal) * x j
      = x ⟨w.toNat, hw⟩ := by
  rw [Finset.sum_eq_single (⟨w.toNat, hw⟩ : Fin n)]
  · rw [entry w _ (by omega), if_pos rfl, one_mul]
  · intro j _ hj
    rw [entry w _ (by have := j.isLt; omega), if_neg (fun e => hj (Fin.ext e.symm)), zero_mul]
  · intro h
    exact absurd (Finset.mem_univ _) h

end Idealize.ShloMosaic.OneHotRow

end
-- ==== Proof.ClassStep.lean ====
/-
  One step of a table lookup done by comparing, and the twenty-seven steps together.

  A block of 8 × 1024 words `s` and a table of rows of 21 numbers. The step for class `c` takes the block of
  numbers built so far and adds to it, at position (b, l, d), the number `[s b l = c] · row_c d`: the 0/1 mask of the
  positions whose word is `c` is laid along the last axis, row `c` of the table along the first two, and the two are
  multiplied entry by entry. Over the extended reals `0 · x = 0` and `1 · x = x` for every `x`, so after the steps
  for the classes 0, 1, …, n - 1 starting from zero the entry at (b, l, d) is the sum over `c < n` of
  `[s b l = c] · row_c d`, which is `row_(s b l) d` whenever the word `s b l` is below `n`: a one-hot row summed
  against a column.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«419883_j9414568312899_3_alg».proof.Proof.LibOneHotRow

noncomputable section

namespace Cert.Lookup

open Idealize.ShloMosaic Idealize.ShloMosaic.ValueIdx

/-- The block of words, the same with a unit axis appended, one table row, the row as a vector and as a
    [1, 1, 21] slab, and the block of numbers. -/
abbrev SSeq : Shape := ⟨2, ![8, 1024]⟩
abbrev SSeq1 : Shape := ⟨3, ![8, 1024, 1]⟩
abbrev SRow : Shape := ⟨2, ![1, 21]⟩
abbrev SVec : Shape := ⟨1, ![21]⟩
abbrev SRow3 : Shape := ⟨3, ![1, 1, 21]⟩
abbrev SBlk : Shape := ⟨3, ![8, 1024, 21]⟩

/-! ## The layout operations of one step, read at an index -/

section Layout
variable {α : Type}

/-- The mask with a unit axis appended reads, at (b, l, 0), the mask at (b, l). -/
theorem cast_seq_apply (v : SSeq.Idx → α) (h : SSeq.ShapeCasts SSeq1) (b : Fin 8) (l : Fin 1024) (u : Fin 1) :
    shapeCast SSeq1 v h (ix3 b l u) = v (ix2 b l) :=
  shapeCast_apply v h _ _ (by
    have hu : u.val = 0 := by omega
    rw [Shape.rowMajor_val_two, Shape.rowMajor_val_three]
    show b.val * 1024 + l.val = (b.val * 1024 + l.val) * 1 + u.val
    omega)

/-- A vector of 21 as a [1, 1, 21] slab reads, at (0, 0, d), the vector at d. -/
theorem cast_row3_apply (v : SVec.Idx → α) (h : SVec.ShapeCasts SRow3) (u u' : Fin 1) (d : Fin 21) :
    shapeCast SRow3 v h (ix3 u u' d) = v (ix1 d) :=
  shapeCast_apply v h _ _ (by
    have hu : u.val = 0 := by omega
    have hu' : u'.val = 0 := by omega
    rw [Shape.rowMajor_val_one, Shape.rowMajor_val_three]
    show d.val = (u.val * 1 + u'.val) * 21 + d.val
    omega)

/-- The mask column laid along the last axis: at (b, l, d) it is the column at (b, l, 0). -/
theorem bcast_mask_apply (v : SSeq1.Idx → α) (h : SSeq1.Broadcasts SBlk) (b : Fin 8) (l : Fin 1024) (d : Fin 21) :
    broadcastTo SBlk v h (ix3 b l d) = v (ix3 b l (0 : Fin 1)) := by
  refine broadcastTo_apply v h (ix3 b l d) (ix3 b l (0 : Fin 1)) fun ax => ?_
  match ax with
  | ⟨0, _⟩ => show b.val = if (8 : Nat) = 1 then 0 else b.val; rw [if_neg (by decide)]
  | ⟨1, _⟩ => show l.val = if (1024 : Nat) = 1 then 0 else l.val; rw [if_neg (by decide)]
  | ⟨2, _⟩ => show (0 : Nat) = if (1 : Nat) = 1 then 0 else d.val; rw [if_pos rfl]

/-- The row slab laid along the first two axes: at (b, l, d) it is the slab at (0, 0, d). -/
theorem bcast_row_apply (v : SRow3.Idx → α) (h : SRow3.Broadcasts SBlk) (b : Fin 8) (l : Fin 1024) (d : Fin 21) :
    broadcastTo SBlk v h (ix3 b l d) = v (ix3 (0 : Fin 1) (0 : Fin 1) d) := by
  refine broadcastTo_apply v h (ix3 b l d) (ix3 (0 : Fin 1) (0 : Fin 1) d) fun ax => ?_
  match ax with
  | ⟨0, _⟩ => show (0 : Nat) = if (1 : Nat) = 1 then 0 else b.val; rw [if_pos rfl]
  | ⟨1, _⟩ => show (0 : Nat) = if (1 : Nat) = 1 then 0 else l.val; rw [if_pos rfl]
  | ⟨2, _⟩ => show d.val = if (21 : Nat) = 1 then 0 else d.val; rw [if_neg (by decide)]

end Layout

/-! ## The step -/

section Step
variable {F : FTy → Type} [FloatOps F]

/-- THE STEP FOR CLASS `c`: the block so far, plus the mask of the positions whose word is `c` (compared, widened,
    converted to a float, given a unit axis and laid along the last axis) times the row (made a vector, then a
    [1, 1, 21] slab, and laid along the first two axes). -/
def classStep (c : BitVec 32) (s : IVec SSeq 32) (row : FVec F SRow .f32) (prev : FVec F SBlk .f32) : FVec F SBlk .f32 :=
  addf (shapeCast SBlk prev)
    (mulf
      (broadcastTo SBlk (shapeCast SSeq1 (sitofp .f32 (extui 32 (cmpi .eq s (broadcast SSeq c)) (by decide)) : FVec F SSeq .f32)))
      (broadcastTo SBlk (shapeCast SRow3 (shapeCast SVec row))))

/-- The block before the first step: zero everywhere. -/
def zeroBlock : FVec F SBlk .f32 := broadcast SBlk (Scalar.ofBits .f32 0x00000000#32)

end Step

/-- Entry `d` of a one-row array. -/
def rowEntry {α : Type} (row : SRow.Idx → α) (d : Fin 21) : α := row (ix2 (0 : Fin 1) d)

/-- The entry of the mask for class `c` at a word `w`, as an extended real: 1 when `w = c`, else 0. -/
abbrev hot (w c : BitVec 32) : EReal :=
  (FloatOps.sitofp (F := Ideal) .f32 ((IntOp.cmpi .eq w c).setWidth 32) : EReal)

/-- THE STEP AT AN INDEX, over the extended reals: the entry so far plus `[s b l = c] · row d`. -/
theorem classStep_apply (c : BitVec 32) (s : IVec SSeq 32) (row : FVec Ideal SRow .f32) (prev : FVec Ideal SBlk .f32)
    (b : Fin 8) (l : Fin 1024) (d : Fin 21) :
    classStep c s row prev (ix3 b l d) = prev (ix3 b l d) + hot (s (ix2 b l)) c * rowEntry row d := by
  unfold classStep
  rw [addf_apply, mulf_apply, shapeCast_self, bcast_mask_apply, bcast_row_apply, cast_seq_apply, cast_row3_apply,
    shapeCast_1a_a_apply]
  rfl

/-- The zero block at an index. -/
theorem zeroBlock_apply (i : SBlk.Idx) : (zeroBlock (F := Ideal)) i = 0 := by
  show Ideal.ofBits .f32 0x00000000#32 = 0
  exact Ideal.ofBits_zero_f32

/-! ## The steps together -/

/-- The first `n` steps from zero, at one position: entry `d` after the classes `0 … n - 1`, for the word `w` at that
    position and the table's column `x` (`x c` is row `c`'s entry `d`). -/
def stepsTo (w : BitVec 32) (x : Nat → EReal) : Nat → EReal
  | 0 => 0
  | n + 1 => stepsTo w x n + hot w (BitVec.ofNat 32 n) * x n

/-- The steps are the sum over the classes of `[w = c] · x c`. -/
theorem stepsTo_eq_sum (w : BitVec 32) (x : Nat → EReal) (n : Nat) :
    stepsTo w x n = ∑ j : Fin n, hot w (BitVec.ofNat 32 j.val) * x j.val := by
  induction n with
  | zero => simp [stepsTo]
  | succ n ih => rw [stepsTo, ih, Fin.sum_univ_castSucc]; rfl

/-- AFTER ALL THE STEPS the entry is the table's at the word: a one-hot row against a column. -/
theorem stepsTo_eq (w : BitVec 32) (x : Nat → EReal) (n : Nat) (hn : n ≤ 2 ^ 32) (hw : w.toNat < n) :
    stepsTo w x n = x w.toNat := by
  rw [stepsTo_eq_sum]
  exact OneHotRow.sum_mul hn w hw (fun j => x j.val)

/-! ## The whole result -/

/-- The array of words, the table, and the result. -/
abbrev SWords : Shape := ⟨2, ![128, 8192]⟩
abbrev STable : Shape := ⟨2, ![27, 21]⟩
abbrev SResult : Shape := ⟨3, ![128, 8192, 21]⟩

/-- Row `n` of the table, for `n` a class number (taken modulo 27 so that it is a row for every `n`). -/
def rowNo (n : Nat) : Fin 27 := ⟨n % 27, Nat.mod_lt _ (by norm_num)⟩

/-- THE LOOKUP: the result at (r, c, k) is the table at the row the word (r, c) names, column k. -/
def lookup (words : IVec SWords 32) (table : STable.Idx → EReal) : SResult.Idx → EReal :=
  fun i => table (ix2 (rowNo (words (ix2 (i 0) (i 1))).toNat) (i 2))

end Cert.Lookup

end
-- ==== Proof.LibWholeReadBack.lean ====
/-
  Reading a buffer back after stores the last of which rewrote it whole.

  A body that keeps an accumulator in a buffer — load the whole buffer, compute, store the whole buffer, again and
  again — leaves a list of stores each through the whole-shape rectangle at zero offsets. A load through that same
  rectangle, after any stores of which the LAST went through it, reads that last store's payload: the earlier
  stores are all overwritten. (The library states this for ONE store; here the earlier ones are arbitrary.)
-/
import Idealize.ShloMosaic.Lib.Pipeline.Value

noncomputable section

namespace Idealize.ShloMosaic.WholeReadBack

open Idealize.ShloMosaic

variable {Val : EltTy → Type} {S : Shape} {e : EltTy}

/-- A load through the whole-shape rectangle, after stores the last of which went through it, reads that store's
    payload, whatever the earlier stores were. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

end Idealize.ShloMosaic.WholeReadBack

end
-- ==== Proof.BlockValue.lean ====
/-
  What one grid point leaves in its output block, entry by entry.

  The body zeroes its 8 × 1024 × 21 output block and then, for each class c = 0, 1, …, 26 in turn, loads the whole
  block back, adds `[seq = c] · table row c` (ClassStep.lean's step), and stores the whole block again. Every store
  rewrites the whole block, so each load reads exactly what the store before it wrote, and the block the point
  leaves is the twenty-seventh step applied to the twenty-sixth … applied to zero. (The printed body is cut into
  parts of sixty statements; where a cut falls inside a step the step's arithmetic is split over two or three named
  terms, which put together are the same step.) At entry (b, l, d) that is the sum over the classes of
  `[seq b l = c] · table c d`.
-/
import proofs.«419883_j9414568312899_3_alg».proof.Proof.Gen.KernelIdeal.Frame
import Idealize.ShloMosaic.Lib.Pipeline.Value
import proofs.«419883_j9414568312899_3_alg».proof.Proof.ClassStep
import proofs.«419883_j9414568312899_3_alg».proof.Proof.LibWholeReadBack

set_option maxRecDepth 16384

noncomputable section

namespace Cert.KernelIdeal.BlockValue

open Cert.KernelIdeal Cert.KernelIdeal.Gen Idealize.ShloMosaic Idealize.ShloMosaic.TcCoe Idealize.ShloMosaic.Tactic
open Idealize.ShloMosaic.ValueIdx
open Idealize.SL Idealize.SL.Sem
open Cert.Lookup

/-! ## Each class's arithmetic is the one step -/

section Steps
variable {F : FTy → Type} [FloatOps F]
variable (s : Vec F S8x1024 .i32) (r : Vec F S1x21 .f32) (p : Vec F S8x1024x21 .f32)

/-- The first store's value is the zero block. -/
theorem start_zero : (k0_pay2 : FVec F S8x1024x21 .f32) = zeroBlock := rfl

-- a step whose arithmetic is one named term: the words, the row, the block so far
theorem step0 : k0_pay3 s r p = classStep 0#32 s r p := rfl
theorem step1 : k0_pay4 s r p = classStep 1#32 s r p := rfl
theorem step2 : k0_pay5 s r p = classStep 2#32 s r p := rfl
theorem step3 : k0_pay6 s r p = classStep 3#32 s r p := rfl
theorem step5 : k0_pay10 s r p = classStep 5#32 s r p := rfl
theorem step7 : k0_pay15 s r p = classStep 7#32 s r p := rfl
theorem step8 : k0_pay16 s r p = classStep 8#32 s r p := rfl
theorem step9 : k0_pay17 s r p = classStep 9#32 s r p := rfl
theorem step10 : k0_pay18 s r p = classStep 10#32 s r p := rfl
theorem step12 : k0_pay22 s r p = classStep 12#32 s r p := rfl
theorem step13 : k0_pay23 s r p = classStep 13#32 s r p := rfl
theorem step14 : k0_pay24 s r p = classStep 14#32 s r p := rfl
theorem step15 : k0_pay25 s r p = classStep 15#32 s r p := rfl
theorem step17 : k0_pay29 s r p = classStep 17#32 s r p := rfl
theorem step19 : k0_pay34 s r p = classStep 19#32 s r p := rfl
theorem step20 : k0_pay35 s r p = classStep 20#32 s r p := rfl
theorem step21 : k0_pay36 s r p = classStep 21#32 s r p := rfl
theorem step22 : k0_pay37 s r p = classStep 22#32 s r p := rfl
theorem step24 : k0_pay41 s r p = classStep 24#32 s r p := rfl
theorem step25 : k0_pay42 s r p = classStep 25#32 s r p := rfl
theorem step26 : k0_pay1 s r p = classStep 26#32 s r p := rfl
-- a step cut after the row became a vector and the mask a word array (or a float array): three terms
theorem step4 : k0_pay9 (k0_pay7 r) (k0_pay8 s) p = classStep 4#32 s r p := rfl
theorem step11 : k0_pay21 (k0_pay19 r) (k0_pay20 s) p = classStep 11#32 s r p := rfl
theorem step16 : k0_pay28 (k0_pay26 r) (k0_pay27 s) p = classStep 16#32 s r p := rfl
theorem step23 : k0_pay40 (k0_pay38 r) (k0_pay39 s) p = classStep 23#32 s r p := rfl
-- a step cut just before the product: the block so far, the mask laid out, the row laid out, then the product and sum
theorem step6 : k0_pay14 (k0_pay11 p) (k0_pay12 s) (k0_pay13 r) = classStep 6#32 s r p := rfl
theorem step18 : k0_pay33 (k0_pay30 p) (k0_pay31 s) (k0_pay32 r) = classStep 18#32 s r p := rfl

end Steps

/-! ## A table row read at an index -/

/-- The load of row `q` of the table (one row, all 21 columns) has, as its entry `d`, the table at (q, d). -/
theorem ld_row {Val : EltTy → Type} {e : EltTy} (x1 : S27x21.Idx → Val e) (q : Nat)
    (inb : ∀ a, (![q, 0] : Fin 2 → Nat) a + (![1, 21] : Fin 2 → Nat) a ≤ S27x21.size a) (d : Fin 21) :
    rowEntry (View.ld x1 (Rect.unit ![q, 0] ![1, 21] inb)) d
      = x1 (ix2 (⟨q, by have h := inb 0; change q + 1 ≤ 27 at h; omega⟩ : Fin 27) d) := by
  show x1 _ = x1 _
  congr 1
  funext a
  refine Fin.ext ?_
  match a with
  | ⟨0, _⟩ => show q + 1 * 0 = q; omega
  | ⟨1, _⟩ => show 0 + 1 * d.val = d.val; omega

/-! ## The block -/

theorem zeros3 : (![0, 0, 0] : Fin 3 → Nat) = fun _ => 0 := by funext a; fin_cases a <;> rfl
theorem zeros2 : (![0, 0] : Fin 2 → Nat) = fun _ => 0 := by funext a; fin_cases a <;> rfl

/-- THE BLOCK AT AN ENTRY: what the body leaves at (b, l, d) of its output block, from the block of words `x0` and
    the table `x1`, is the twenty-seven steps' sum for the word at (b, l) against the table's column `d`. -/
theorem block_apply (c : Dev nD) (i : grid0.Coords) (arg2 : Memref sig .tc .vmem S8x1024 .i32) (harg2 : arg2.IsWhole)
    (arg3 : Memref sig .tc .vmem S27x21 .f32) (harg3 : arg3.IsWhole) (arg4 : Memref sig .tc .vmem S8x1024x21 .f32) (harg4 : arg4.IsWhole)
    (x0 : Vec Ideal S8x1024 .i32) (x1 : Vec Ideal S27x21 .f32) (b : Fin 8) (l : Fin 1024) (d : Fin 21) :
    out0_A_2 c i arg2 harg2 arg3 harg3 arg4 harg4 x0 x1 (ix3 b l d)
      = stepsTo (x0 (ix2 b l)) (fun n => x1 (ix2 (rowNo n) d)) 27 := by
  unfold out0_A_2
  rw [View.read_writes_eq_canon _ _ _ (cover0_A_2 c i arg2 harg2 arg3 harg3 arg4 harg4 x0 x1)]
  unfold kernelRun0_A
  dsimp only
  -- the last store rewrote the whole block
  rw [View.canon_cons_unit_zero (S := S8x1024x21) zeros3]
  -- each load of the block reads the store before it; the loads of the words and of the table rows read the inputs
  sl_unfold_run_names
  simp only [WholeReadBack.readCov_cons_unit_zero (S := S8x1024x21) _ zeros3,
    View.readCov_unit_zero (S := S8x1024x21) _ zeros3,
    View.readAt_eq_ld, harg2.read_unread, harg3.read_unread, View.ld_unit_zero (S := S8x1024) zeros2]
  -- the twenty-seven steps, innermost first
  simp only [start_zero, step0, step1, step2, step3, step4, step5, step6, step7, step8, step9, step10, step11, step12,
    step13, step14, step15, step16, step17, step18, step19, step20, step21, step22, step23, step24, step25, step26]
  -- each step at the entry, and each row's entry in the table
  simp only [classStep_apply, zeroBlock_apply, ld_row]
  rfl

end Cert.KernelIdeal.BlockValue

end
-- ==== Proof.KernelValue.lean ====
/-
  The kernel's result array: the lookup.

  The grid has 16 × 8 points; point (i, j) stages rows 8i … 8i + 7 and columns 1024j … 1024j + 1023 of the words, the
  whole table, and writes back the block of the result at the same rows and columns (all 21 entries). What it
  writes back at (b, l, d) is the twenty-seven steps' sum for the word at (8i + b, 1024j + l), which — the word being
  a row number — is the table's entry (word, d): the block is the block of the lookup. The 128 blocks tile the
  result, so the result is the lookup everywhere.
-/
import proofs.«419883_j9414568312899_3_alg».proof.Proof.Gen.KernelIdeal.Value
import proofs.«419883_j9414568312899_3_alg».proof.Proof.BlockValue

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.Lookup

variable (m : (ℓ : Loc nD τ sig) → Buf (Elt Ideal) ℓ) (ρ : Dev nD → PrngReg)

/-- The words and the table as the region finds them, and the blocks of them that point `t` stages. -/
abbrev wordsArr (c : Dev nD) : Vec Ideal S128x8192 .i32 := V m c main_arg0
abbrev tableArr (c : Dev nD) : Vec Ideal S27x21 .f32 := V m c main_arg1
abbrev wordsBlk (c : Dev nD) (t : Fin cfg0.N) : Vec Ideal S8x1024 .i32 := iblk m c 0 t
abbrev tableBlk (c : Dev nD) (t : Fin cfg0.N) : Vec Ideal S27x21 .f32 := iblk m c 1 t

/-- The printed index maps, decided over the 128 points: the words' block moves with the result's on the first two
    axes, the table's block is the whole table, and the result's block indices stay in their ranges. -/
theorem idx_facts : ∀ t : Fin cfg0.N,
    win0_0.index t (0 : Fin 2) = win0_2.index t (0 : Fin 3)
    ∧ win0_0.index t (1 : Fin 2) = win0_2.index t (1 : Fin 3)
    ∧ win0_1.index t (0 : Fin 2) = 0 ∧ win0_1.index t (1 : Fin 2) = 0
    ∧ win0_2.index t (0 : Fin 3) ≤ 15 ∧ win0_2.index t (1 : Fin 3) ≤ 7 ∧ win0_2.index t (2 : Fin 3) = 0 :=
  (by decide +kernel : ∀ t : Fin grid0.N, _)

/-- Every block of the result is some point's. -/
theorem idx_onto : ∀ (q0 : Fin 16) (q1 : Fin 8), ∃ t : Fin cfg0.N, win0_2.index t = ![q0.val, q1.val, 0] :=
  (by decide +kernel : ∀ (q0 : Fin 16) (q1 : Fin 8), ∃ t : Fin grid0.N, win0_2.index t = ![q0.val, q1.val, 0])

/-- The staged block of words at (b, l) is the array's word at the result block's rows and columns. -/
theorem wordsBlk_apply (c : Dev nD) (t : Fin cfg0.N) (b : Fin 8) (l : Fin 1024) (d : Fin 21) :
    wordsBlk m c t (ix2 b l)
      = wordsArr m c (ix2 ((((cfg0.win 2).blk t).view.emb (ix3 b l d)) 0) ((((cfg0.win 2).blk t).view.emb (ix3 b l d)) 1)) := by
  obtain ⟨e0, e1, -, -, -, -, -⟩ := idx_facts t
  show V m c main_arg0 (((cfg0.win 0).blk t).view.emb (ix2 b l)) = V m c main_arg0 _
  congr 1
  funext a
  refine Fin.ext ?_
  match a with
  | ⟨0, _⟩ => show win0_0.index t (0 : Fin 2) * 8 + 1 * b.val = win0_2.index t (0 : Fin 3) * 8 + 1 * b.val; omega
  | ⟨1, _⟩ => show win0_0.index t (1 : Fin 2) * 1024 + 1 * l.val = win0_2.index t (1 : Fin 3) * 1024 + 1 * l.val; omega

/-- The staged table is the table. -/
theorem tableBlk_apply (c : Dev nD) (t : Fin cfg0.N) (q : Fin 27) (d : Fin 21) :
    tableBlk m c t (ix2 q d) = tableArr m c (ix2 q d) := by
  obtain ⟨-, -, e2, e3, -, -, -⟩ := idx_facts t
  show V m c main_arg1 (((cfg0.win 1).blk t).view.emb (ix2 q d)) = V m c main_arg1 _
  congr 1
  funext a
  refine Fin.ext ?_
  match a with
  | ⟨0, _⟩ => show win0_1.index t (0 : Fin 2) * 27 + 1 * q.val = q.val; omega
  | ⟨1, _⟩ => show win0_1.index t (1 : Fin 2) * 21 + 1 * d.val = d.val; omega

/-- The result block's last coordinate is the entry's own. -/
theorem col_apply (t : Fin cfg0.N) (b : Fin 8) (l : Fin 1024) (d : Fin 21) :
    (((cfg0.win 2).blk t).view.emb (ix3 b l d)) 2 = d := by
  obtain ⟨-, -, -, -, -, -, e6⟩ := idx_facts t
  refine Fin.ext ?_
  show win0_2.index t (2 : Fin 3) * 21 + 1 * d.val = d.val
  omega

/-- WHAT POINT `t` WRITES BACK is block `t` of the lookup of the words and the table, when every word is a row
    number. -/
theorem flushed_eq (c : Dev nD) (hrange : ∀ i, (wordsArr m c i).toNat < 27) (t : Fin cfg0.N) :
    (dats m 0 c).flushed 2 t = ((cfg0.win 2).blk t).view.read (Elt Ideal) (lookup (wordsArr m c) (tableArr m c)) := by
  rw [Value.flushed2_A]
  funext j
  obtain ⟨b, l, d, rfl⟩ : ∃ (b : Fin 8) (l : Fin 1024) (d : Fin 21), j = ix3 b l d := ⟨j 0, j 1, j 2, eq_ix3 j⟩
  show out0_A_2 c (grid0.coords t) (ms0_0 t) (hs0_0 t) (ms0_1 t) (hs0_1 t) (ms0_2 t) (hs0_2 t) (wordsBlk m c t) (tableBlk m c t) (ix3 b l d)
    = lookup (wordsArr m c) (tableArr m c) (((cfg0.win 2).blk t).view.emb (ix3 b l d))
  refine (BlockValue.block_apply c (grid0.coords t) (ms0_0 t) (hs0_0 t) (ms0_1 t) (hs0_1 t) (ms0_2 t) (hs0_2 t)
    (wordsBlk m c t) (tableBlk m c t) b l d).trans ?_
  have hword := wordsBlk_apply m c t b l d
  have hw : (wordsBlk m c t (ix2 b l)).toNat < 27 := by rw [hword]; exact hrange _
  rw [stepsTo_eq _ _ 27 (by norm_num) hw, tableBlk_apply, hword]
  unfold lookup
  rw [col_apply]

/-- An index of the result is in point `t`'s block iff each coordinate is in the block's range on its axis. -/
theorem mem_blk (t : Fin cfg0.N) (i : S128x8192x21.Idx) :
    i ∈ ((cfg0.win 2).blk t).view.set ↔ ∀ a : Fin 3, win0_2.index t a * S8x1024x21.size a ≤ (i a).val
      ∧ (i a).val < win0_2.index t a * S8x1024x21.size a + S8x1024x21.size a := by
  show i ∈ ((View.whole main_v0).slice (win0_2.rect t)).set ↔ _
  rw [View.set_slice_whole, Rect.mem_set_unit]
  exact Iff.rfl

/-- The blocks tile the result: row r is in block row r / 8, column c in block column c / 1024. -/
theorem covered (i : S128x8192x21.Idx) :
    ∃ t : Fin cfg0.N, (cfg0.win 2).flush t = true ∧ i ∈ ((cfg0.win 2).blk t).view.set := by
  have hi0 : (i 0).val < 128 := (i 0).isLt
  have hi1 : (i 1).val < 8192 := (i 1).isLt
  have hi2 : (i 2).val < 21 := (i 2).isLt
  obtain ⟨t, ht⟩ := idx_onto ⟨(i 0).val / 8, by omega⟩ ⟨(i 1).val / 1024, by omega⟩
  have q0 : win0_2.index t (0 : Fin 3) = (i 0).val / 8 := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 21 ≤ (i 2).val ∧ (i 2).val < win0_2.index t (2 : Fin 3) * 21 + 21; omega

/-- THE RESULT after the run: the lookup of the words and the table. -/
theorem final (c : Dev nD) (hrange : ∀ i, (wordsArr m c i).toNat < 27) :
    (dats m 0 c).arrAt 2 cfg0.N = lookup (wordsArr m c) (tableArr m c) :=
  (dats m 0 c).arrAt_eq_of_cover 2 _ (fun t _ => flushed_eq m c hrange t) covered

/-- THE RUN, READ: every weakly fair execution ends with the result at the lookup of the words and the table as
    launched, and those unchanged — when every word is a row number. -/
theorem run (hrange : ∀ (c : Dev nD) (i : S128x8192.Idx), (m ((c : Thread nD τ).loc main_arg0) i).toNat < 27) :
    θ_run defs (onTc (τ := τ) (main (F := Ideal))) ⟨m, fun _ => 0, ρ⟩ fun r => ∀ c : Dev nD,
      r.2.mem ((c : Thread nD τ).loc main_v0)
          = lookup (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hrange c)), (h c).2⟩) (Value.run_blocks m ρ)

end Cert.KernelIdeal.ArrayValue

end
-- ==== Proof.LibRowsGather3.lean ====
/-
  A table's rows gathered by a two-dimensional array of row numbers.

  What `table[idx]` of a table `[N, D]` at an integer array `idx : [R, C]` lowers to: a `stablehlo.gather` over the
  row numbers kept as `[R, C, 1]`, with the table's first axis collapsed and start-indexed, its second axis the one
  offset axis (the result's last), slice sizes `[1, D]`, and the index vector on the start indices' last axis. The
  result `[R, C, D]` at `(r, c, k)` is the table at row `idx[r, c, 0]` — read as a signed integer and clamped into
  `[0, N - 1]`, as the gather clamps every start index — and column `k`. Stated at any extents.
-/
import Idealize.ShloMosaic.PureOps.ShapeOps
import Idealize.ShloMosaic.Lib.ValueIdx

namespace Idealize.ShloMosaic.RowsGather3

open Idealize.ShloMosaic Idealize.ShloMosaic.ValueIdx

variable {α : Type}

/-- Those dimension numbers for a table `[N, D]`, row numbers `[R, C, 1]` and a result `[R, C, D]`; their conditions
    `wf` are decided on a program's literal shapes. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- On the table's second axis no start index applies: the slice starts at 0. -/
theorem start_col {N D R C w : Nat}
    (wf : GatherDims.WF ⟨2, ![N, D]⟩ ⟨3, ![R, C, 1]⟩ ⟨3, ![R, C, D]⟩ [2] [0] [] [0] [] 2 ![1, D])
    (idx : IVec ⟨3, ![R, C, 1]⟩ w) (r : Fin R) (c : Fin C) (k : Fin D) :
    (rowsDims N D R C wf).start (ix3 r c k) idx (1 : Fin 2) = 0 := rfl

/-- There is no batching axis. -/
theorem batch_col {N D R C : Nat}
    (wf : GatherDims.WF ⟨2, ![N, D]⟩ ⟨3, ![R, C, 1]⟩ ⟨3, ![R, C, D]⟩ [2] [0] [] [0] [] 2 ![1, D])
    (r : Fin R) (c : Fin C) (k : Fin D) :
    (rowsDims N D R C wf).batchCoord (ix3 r c k) (1 : Fin 2) = 0 := rfl

/-- The table's second axis is its one kept axis, read by the result's offset axis 2: the result's last coordinate. -/
theorem off_col {N D R C : Nat}
    (wf : GatherDims.WF ⟨2, ![N, D]⟩ ⟨3, ![R, C, 1]⟩ ⟨3, ![R, C, D]⟩ [2] [0] [] [0] [] 2 ![1, D])
    (r : Fin R) (c : Fin C) (k : Fin D) :
    (rowsDims N D R C wf).offCoord (ix3 r c k) (1 : Fin 2) = k.val := rfl

/-- THE GATHER READ AT `(r, c, k)`: the table at row `idx[r, c, 0]`, read signed and clamped into `[0, N - 1]`, and
    column `k`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (k : Fin D) :
    Host.gather (rowsDims N D R C wf) x idx (ix3 r c k)
      = x (ix2 ⟨min (idx (ix3 r c (0 : Fin 1))).toInt.toNat (N - 1), by omega⟩ k) := by
  unfold Host.gather
  congr 1
  funext a
  refine Fin.ext ?_
  match a with
  | ⟨0, _⟩ =>
    -- the collapsed, start-indexed axis: the clamped start, no batching or offset coordinate
    show (rowsDims N D R C wf).start (ix3 r c k) idx 0 + (rowsDims N D R C wf).batchCoord (ix3 r c k) 0
        + (rowsDims N D R C wf).offCoord (ix3 r c k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx (ix3 r c k) ⟨List.idxOf (0 : Fin 2) (rowsDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    -- the offset axis: no start index names it, no batching; the result's last coordinate
    show (rowsDims N D R C wf).start (ix3 r c k) idx (1 : Fin 2) + (rowsDims N D R C wf).batchCoord (ix3 r c k) (1 : Fin 2)
        + (rowsDims N D R C wf).offCoord (ix3 r c k) (1 : Fin 2) = k.val
    rw [start_col, batch_col, off_col]
    omega

end Idealize.ShloMosaic.RowsGather3
-- ==== Proof.RefValue.lean ====
/-
  The reference's result: the lookup.

  The reference adds 27 to a negative word (Python's wrap-around of a negative index) and gathers the table's rows
  at the resulting row numbers, each clamped into 0 … 26. A word that is a row number already is not negative, so it
  is kept, and it is inside the clamp's range, so it is read as it stands: the gather at (r, c, k) is the table at
  (word (r, c), k).
-/
import proofs.«419883_j9414568312899_3_alg».proof.Proof.Gen.ReferenceIdeal.Read
import proofs.«419883_j9414568312899_3_alg».proof.Proof.LibRowsGather3
import proofs.«419883_j9414568312899_3_alg».proof.Proof.ClassStep
import Idealize.ShloMosaic.Lib.Affine
import Idealize.ShloMosaic.Lib.ValueIdx

noncomputable section

namespace Cert.ReferenceIdeal.RefValue

open Cert.ReferenceIdeal Cert.ReferenceIdeal.Gen Cert.ReferenceIdeal.Read Idealize.ShloMosaic
open Idealize.ShloMosaic.ValueIdx
open Cert.Lookup

/-- The program's gather is the rows-gather of LibRowsGather3.lean at a 27 × 21 table and 128 × 8192 row numbers. -/
theorem dims_eq : gather_S27x21_S128x8192x1_S128x8192x21_2_0_n_n_0_2_121
    = RowsGather3.rowsDims 27 21 128 8192 gather_S27x21_S128x8192x1_S128x8192x21_2_0_n_n_0_2_121_wf := rfl

/-- A word that is not negative is kept by the wrap-around. -/
theorem wrapped_apply (x0 : IVec S128x8192 32) (i : S128x8192.Idx) (h0 : 0 ≤ (x0 i).toInt) :
    val_main_v4 (F := Ideal) x0 i = x0 i := by
  rw [val_main_v4_apply, val_main_v1_apply, val_main_v0_apply, val_main_c_apply]
  have hneg : IntOp.cmpi .slt (x0 i) 0#32 = 0#1 := by
    rcases BitVec.eq_zero_or_eq_one (IntOp.cmpi .slt (x0 i) 0#32) with h | h
    · exact h
    · have h' : (x0 i).toInt < (0#32 : BitVec 32).toInt := IntOp.cmpi_slt.1 h
      have e0 : (0#32 : BitVec 32).toInt = 0 := by decide
      omega
  rw [hneg]
  exact select_zero _ _

/-- THE REFERENCE AT AN ENTRY: where the word at (r, c) is a row number, the gather at (r, c, k) is the table at
    (word, k) — the lookup. -/
theorem ref_apply (x0 : IVec S128x8192 32) (x1 : FVec Ideal S27x21 .f32) (r : Fin 128) (c : Fin 8192) (k : Fin 21)
    (hw : (x0 (ix2 r c)).toNat < 27) (hs : (x0 (ix2 r c)).toInt = ((x0 (ix2 r c)).toNat : ℤ)) :
    val_main_v6 (F := Ideal) x0 x1 (ix3 r c k) = lookup x0 x1 (ix3 r c k) := by
  -- the row number the gather reads at (r, c) is the word itself
  have hidx : idx_main_v5 (ix3 r c (0 : Fin 1)) = ix2 r c := by
    funext a; match a with | ⟨0, _⟩ => rfl | ⟨1, _⟩ => rfl
  have hrow : val_main_v5 (F := Ideal) x0 (ix3 r c (0 : Fin 1)) = x0 (ix2 r c) := by
    rw [val_main_v5_apply, hidx, wrapped_apply x0 _ (by rw [hs]; exact Int.natCast_nonneg _)]
  unfold val_main_v6
  rw [dims_eq, RowsGather3.gather_rows_apply (by norm_num)]
  unfold lookup
  congr 1
  funext a
  match a with
  | ⟨0, _⟩ =>
    refine Fin.ext ?_
    show min (val_main_v5 (F := Ideal) x0 (ix3 r c (0 : Fin 1))).toInt.toNat (27 - 1) = (x0 (ix2 r c)).toNat % 27
    rw [hrow, hs, Int.toNat_natCast]
    omega
  | ⟨1, _⟩ => rfl

end Cert.ReferenceIdeal.RefValue

end
-- ==== Proof.PreRange.lean ====
/-
  What the precondition says of the words: every one is a row number of the table.

  The precondition is the conjunction of two `all`s: every table entry finite, and every word `w` of the 128 × 8192
  array with `0 ≤ w` and `w < 27`, both compared as signed integers. Only the second is used: a word that is
  non-negative as a signed integer is its own unsigned value, so the word is one of 0, 1, …, 26.
-/
import proofs.«419883_j9414568312899_3_alg».proof.Pre_finite_inputs
import Idealize.ShloMosaic.Lib.ReduceAll
import Idealize.ShloMosaic.Lib.ValueIdx

noncomputable section

namespace Cert.Pre_finite_inputs.Range

open Cert.Pre_finite_inputs Idealize.ShloMosaic

/-- A 32-bit word that is at least 0 and below 27 as a signed integer is below 27 as a natural number, and reads
    the same signed and unsigned. -/
theorem word_small {w : BitVec 32} (h0 : 0 ≤ w.toInt) (h1 : w.toInt < 27) : w.toNat < 27 ∧ w.toInt = (w.toNat : ℤ) := by
  have hlt := w.isLt
  rw [BitVec.toInt_eq_toNat_cond] at h0 h1 ⊢
  split at h0 <;> split at h1 <;> omega

instance : Subsingleton S_.Idx := ⟨fun _ _ => funext fun d => d.elim0⟩

variable [Facts]

/-- THE WORDS ARE ROW NUMBERS: where the precondition holds, every word of the array is at least 0 and below 27 as a
    signed integer. -/
theorem words_in_range {F : FTy → Type} [FloatOps F] (x0 : IVec S128x8192 32) (x1 : FVec F S27x21 .f32)
    (h : fn (F := F) x0 x1 = fun _ => 1#1) (i : S128x8192.Idx) : 0 ≤ (x0 i).toInt ∧ (x0 i).toInt < 27 := by
  have h0 := congrFun h ValueIdx.ix0
  dsimp only [fn] at h0
  -- the second conjunct: the `all` over the words
  obtain ⟨-, hall⟩ := IntOp.andi_eq_one.1 h0
  -- at word `i`: both comparisons came out 1
  have hi := Host.reduce_andi_all _ _ _ _ _ hall i
  obtain ⟨hge, hlt⟩ := IntOp.andi_eq_one.1 hi
  have hge' : (0#32 : BitVec 32).toInt ≤ (x0 i).toInt := IntOp.cmpi_sge.1 hge
  have hlt' : (x0 i).toInt < (27#32 : BitVec 32).toInt := IntOp.cmpi_slt.1 hlt
  have e0 : (0#32 : BitVec 32).toInt = 0 := by decide
  have e27 : (27#32 : BitVec 32).toInt = 27 := by decide
  rw [e0] at hge'
  rw [e27] at hlt'
  exact ⟨hge', hlt'⟩

/-- … so every word is below 27 as a natural number and reads the same signed and unsigned. -/
theorem words_small {F : FTy → Type} [FloatOps F] (x0 : IVec S128x8192 32) (x1 : FVec F S27x21 .f32)
    (h : fn (F := F) x0 x1 = fun _ => 1#1) (i : S128x8192.Idx) : (x0 i).toNat < 27 ∧ (x0 i).toInt = ((x0 i).toNat : ℤ) :=
  word_small (words_in_range x0 x1 h i).1 (words_in_range x0 x1 h i).2

end Cert.Pre_finite_inputs.Range

end
-- ==== Proof.lean ====
/-
  A table lookup done by comparing, against a gather.

  The kernel computes, for an array of words `seq : [128, 8192]` and a table `[27, 21]`,
  `out[b, l, d] = Σ_{c < 27} [seq[b, l] = c] · table[c, d]`: per block of 8 × 1024 words it zeroes the output block and
  adds the twenty-seven one-class terms one after the other. The reference is `table[seq]`: a gather of the table's
  rows at the words, a negative word first moved up by 27 and every row number clamped into 0 … 26.

  The two differ where a word is not a row number (the kernel's sum is then 0, the reference reads some row), so the
  claim is stated where every word `w` has `0 ≤ w < 27` — the range in which the reference's own index is in range.
  There the sum has exactly one term that is not zero: over the extended reals `0 · x = 0` and `1 · x = x` for every
  `x`, infinite ones included, so the sum is `table[seq[b, l], d]` and no finiteness of the table is used. The
  reference there keeps the word (it is not negative) and reads it unclamped (it is at most 26): the same entry.

  The modules: ClassStep (one class's step as a function, its value at an entry, the steps' sum), LibOneHotRow (a
  one-hot row against a column), BlockValue (what one grid point leaves in its block), KernelValue (the blocks tile
  the result: the kernel's result is the lookup), LibRowsGather3 (such a gather read at an entry), RefValue (the
  reference's result is the lookup), PreRange (the precondition read back: every word is a row number),
  LibWholeReadBack (a buffer read back after whole stores).
-/
import proofs.«419883_j9414568312899_3_alg».proof.Defs
import proofs.«419883_j9414568312899_3_alg».proof.Proof.Gen.Kernel
import proofs.«419883_j9414568312899_3_alg».proof.Proof.Gen.Kernel.Skeleton
import proofs.«419883_j9414568312899_3_alg».proof.Proof.Gen.Kernel.Launch
import proofs.«419883_j9414568312899_3_alg».proof.Proof.Gen.Kernel.Points
import proofs.«419883_j9414568312899_3_alg».proof.Proof.Gen.Kernel.Frame
import proofs.«419883_j9414568312899_3_alg».proof.Proof.Gen.KernelIdeal
import proofs.«419883_j9414568312899_3_alg».proof.Proof.Gen.KernelIdeal.Skeleton
import proofs.«419883_j9414568312899_3_alg».proof.Proof.Gen.KernelIdeal.Launch
import proofs.«419883_j9414568312899_3_alg».proof.Proof.Gen.KernelIdeal.Points
import proofs.«419883_j9414568312899_3_alg».proof.Proof.Gen.KernelIdeal.Frame
import proofs.«419883_j9414568312899_3_alg».proof.Proof.Gen.KernelIdeal.Value
import proofs.«419883_j9414568312899_3_alg».proof.Proof.Gen.ReferenceIdeal
import proofs.«419883_j9414568312899_3_alg».proof.Proof.Gen.ReferenceIdeal.Run
import proofs.«419883_j9414568312899_3_alg».proof.Proof.Gen.ReferenceIdeal.Read
import proofs.«419883_j9414568312899_3_alg».proof.Proof.Gen.Pre_finite_inputs
import proofs.«419883_j9414568312899_3_alg».proof.Proof.KernelValue
import proofs.«419883_j9414568312899_3_alg».proof.Proof.RefValue
import proofs.«419883_j9414568312899_3_alg».proof.Proof.PreRange
import Idealize.ShloMosaic.Adequacy
import Idealize.ShloMosaic.Init

noncomputable section

namespace Cert.Proof

open Idealize.ShloMosaic Idealize.SL.Sem Idealize.ShloMosaic.ValueIdx

/-- The kernel runs and leaves its arguments as they were (its staged blocks always lie inside their arrays). -/
theorem frame_kernel : Cert.frame_Kernel := fun m ρ _ => Cert.Kernel.Gen.frame m ρ

/-- The same read over the extended reals. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Where every word is a row number both programs end with the lookup `table[seq[b, l], d]`: the kernel because its
    twenty-seven-term sum has one term that is not zero, the reference because it keeps the word and reads it
    unclamped. -/
theorem algebraic : Cert.algebraic_KernelIdeal_ReferenceIdeal := by
  intro m ρ m' ρ' hpre hagree
  -- the precondition read back: every word is below 27 and reads the same signed and unsigned
  have hsmall := fun (c : Dev Cert.KernelIdeal.nD) (i : Cert.KernelIdeal.S128x8192.Idx) =>
    Cert.Pre_finite_inputs.Range.words_small (F := Ideal) _ _ (hpre c) i
  refine ⟨fun c => Cert.Lookup.lookup
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ (fun c i => (hsmall c i).1), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v6_eq]
  funext j
  obtain ⟨r, q, k, rfl⟩ : ∃ (r : Fin 128) (q : Fin 8192) (k : Fin 21), j = ix3 r q k := ⟨j 0, j 1, j 2, eq_ix3 j⟩
  exact Cert.ReferenceIdeal.RefValue.ref_apply _ _ r q k (hsmall c _).1 (hsmall c _).2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
